-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S800000 32) (main_arg2 : IVec S800000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 20
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S1x128, .f32⟩
  | .hbm, ⟨19, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LinearRelu.lean ====
/-
  The function of the arrays that both programs compute after the shared gather / segment-sum head:
  a dense layer with a rectified result.  For a node matrix `h` (50000 rows of 128 features), a weight
  matrix `W` (128 × 128) and a bias row `b` (128), entry (r, c) of the result is

      max (∑ₖ h[r, k] · W[k, c] + b[c], 0)

  over the extended reals.  The zero is kept as the f32 zero word, which both programs print; it is
  never evaluated.  No law of arithmetic is needed to join the two sides: each computes exactly this
  sum, in this order of factors, so the finiteness of the inputs is never used.
-/
import Idealize.ShloMosaic.Lib.ValueIdx
import Idealize.ShloMosaic.PureOps.Ideal.Laws

noncomputable section

namespace Cert.LinearRelu

open Idealize.ShloMosaic Idealize.ShloMosaic.ValueIdx

/-- Row `r` of `h` against column `c` of `W`, plus `b c`, floored at zero: the dense layer's entry (r, c). -/
def entry (h : FVec Ideal ⟨2, ![50000, 128]⟩ .f32) (W : FVec Ideal ⟨2, ![128, 128]⟩ .f32)
    (b : FVec Ideal ⟨1, ![128]⟩ .f32) (r : Fin 50000) (c : Fin 128) : EReal :=
  max ((∑ k : Fin 128, h (ix2 r k) * W (ix2 k c)) + b (ix1 c)) (Ideal.ofBits .f32 0x00000000#32)

/-- The whole result array: `entry` at each index's two coordinates. -/
def out (h : FVec Ideal ⟨2, ![50000, 128]⟩ .f32) (W : FVec Ideal ⟨2, ![128, 128]⟩ .f32)
    (b : FVec Ideal ⟨1, ![128]⟩ .f32) : FVec Ideal ⟨2, ![50000, 128]⟩ .f32 :=
  fun i => entry h W b (i 0) (i 1)

theorem out_apply (h : FVec Ideal ⟨2, ![50000, 128]⟩ .f32) (W : FVec Ideal ⟨2, ![128, 128]⟩ .f32)
    (b : FVec Ideal ⟨1, ![128]⟩ .f32) (r : Fin 50000) (c : Fin 128) :
    out h W b (ix2 r c) = entry h W b r c := rfl

end Cert.LinearRelu

end
-- ==== Proof.RefValue.lean ====
/-
  The reference, read at an index.  After the gather / segment-sum head (kept whole, as the array `h`),
  the reference multiplies `h` by `W` with one `dot_general` over the feature axis, adds the bias row
  broadcast down the 50000 rows, and takes the maximum with a zero array: entry (r, c) is
  max (∑ₖ h[r, k] · W[k, c] + b[c], 0), the dense layer's entry.
-/
import proofs.«171733_j72765335929214_1_alg».proof.Proof.Gen.ReferenceIdeal.Read
import proofs.«171733_j72765335929214_1_alg».proof.Proof.LinearRelu

noncomputable section

namespace Cert.ReferenceIdeal.RefValue

open Cert.ReferenceIdeal Cert.ReferenceIdeal.Read Idealize.ShloMosaic Idealize.ShloMosaic.ValueIdx

/-- The reference's last stage is the dense layer of its own segment-sum stage `h`, the weights and the bias. -/
theorem result_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal)) :
    val_main_v14 (F := Ideal) x0 x1 x2 x3 x4 = Cert.LinearRelu.out (val_main_v9 (F := Ideal) x0 x1 x2) x3 x4 := by
  funext i
  rw [val_main_v14_apply, val_main_v13_apply, val_main_v10_apply, val_main_v12_apply, val_main_v11_apply,
    val_main_call0_v0_apply, val_main_call0_cst_apply]
  -- the operand indices of the contraction and of the two bias broadcasts, from the coordinates of `i`
  have el : ∀ k : Fin 128, lidx_main_v10 i k = ix2 (i 0) k := fun k => funext fun a => Fin.ext (by
    match a with | ⟨0, _⟩ => rfl | ⟨1, _⟩ => rfl)
  have er : ∀ k : Fin 128, ridx_main_v10 i k = ix2 k (i 1) := fun k => funext fun a => Fin.ext (by
    match a with | ⟨0, _⟩ => rfl | ⟨1, _⟩ => rfl)
  have eb : idx_main_v11 (idx_main_v12 i) = ix1 (i 1) := funext fun a => Fin.ext (by
    match a with | ⟨0, _⟩ => rfl)
  simp only [el, er, eb]
  rfl

end Cert.ReferenceIdeal.RefValue

end
-- ==== Proof.BlockPayload.lean ====
/-
  What the kernel body stores, read at an index.  At one grid point the body holds a block of 5000 rows of
  the node matrix (`x0`), the whole weight matrix (`x1`) and the bias as a 1 × 128 row (`x2`).  It narrows
  the two matrix operands to bf16 — the identity on extended reals —, multiplies them into a zero
  accumulator, adds the bias row broadcast down the rows, and takes the maximum with a zero splat.  So
  row p, column q of the stored block is  max (∑ₖ x0[p, k] · x1[k, q] + x2[0, q], 0).
-/
import proofs.«171733_j72765335929214_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockPayload

open Cert.KernelIdeal Cert.KernelIdeal.Gen Idealize.ShloMosaic Idealize.ShloMosaic.ValueIdx

/-! The matrix product's operand indices at output index `j` and contraction index `q`: the left operand is read
    at (row of `j`, `q`), the right at (`q`, column of `j`). -/

theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of the two narrowed operands into the zero accumulator, at (p, q): the plain sum over the
    128 features. -/
theorem product_apply (x0 : FVec Ideal S5000x128 .f32) (x1 : FVec Ideal S128x128 .f32) (p : Fin 5000) (q : Fin 128) :
    matmul dot_S5000x128_S128x128_S5000x128_1_0_0_1_n_n none (truncf .bf16 x0 bitsLt_bf16_f32) (truncf .bf16 x1 bitsLt_bf16_f32)
        (constant S5000x128 .f32 0x00000000#32) (ix2 p q)
      = ∑ k : Fin 128, x0 (ix2 p k) * x1 (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-- The bias row broadcast down the 5000 rows, at (p, q): the row's entry in column q. -/
theorem bias_apply (x2 : FVec Ideal S1x128 .f32) (p : Fin 5000) (q : Fin 128) :
    broadcastTo S5000x128 x2 broadcasts_S1x128_S5000x128 (ix2 p q) = x2 (ix2 0 q) :=
  broadcastTo_apply x2 broadcasts_S1x128_S5000x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- The stored block at (p, q). -/
theorem pay_apply (x0 : Vec Ideal S5000x128 .f32) (x1 : Vec Ideal S128x128 .f32) (x2 : Vec Ideal S1x128 .f32)
    (p : Fin 5000) (q : Fin 128) :
    k0_pay1 (F := Ideal) x0 x1 x2 (ix2 p q)
      = max ((∑ k : Fin 128, x0 (ix2 p k) * x1 (ix2 k q)) + x2 (ix2 0 q)) (Ideal.ofBits .f32 0x00000000#32) := by
  unfold k0_pay1
  rw [shapeCast_self, shapeCast_self]
  exact congrArg₂ max (congrArg₂ (· + ·) (product_apply x0 x1 p q) (bias_apply x2 p q)) rfl

end Cert.KernelIdeal.BlockPayload

end
-- ==== Proof.PointValue.lean ====
/-
  One grid point of the kernel, over plain arrays.  Point t holds rows 5000·t … 5000·t + 4999 of the
  segment-sum array, the whole weight matrix and the whole bias row.  Whenever the three blocks the body loads
  are those parts of the arrays, the block it stores is the dense layer's entries at the rows the block covers.
-/
import proofs.«171733_j72765335929214_1_alg».proof.Proof.Gen.KernelIdeal.Value
import proofs.«171733_j72765335929214_1_alg».proof.Proof.BlockPayload
import proofs.«171733_j72765335929214_1_alg».proof.Proof.LinearRelu

noncomputable section

namespace Cert.KernelIdeal.DenseValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## One grid point -/

theorem hz : (![0, 0] : Fin 2 → Nat) = fun _ => 0 := funext fun a => by fin_cases a <;> rfl

/-- The printed index maps over the ten points: the first window's and the output's row-block index is the
    point itself, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's stored block at `j` is the dense layer's entry at the array index `i`, once the three loaded
    blocks are known to be the arrays' entries that `i` names: an entry of the first block in row `j 0` and
    column k is `h` at row `i 0` and column k, the second block is `W`, an entry of the third block in column q
    is `b q`, and `j` and `i` have the same column. -/
theorem block_entry (h : FVec Ideal S50000x128 .f32) (W : FVec Ideal S128x128 .f32) (b : FVec Ideal S128 .f32)
    (x0 : Vec Ideal S5000x128 .f32) (x1 : Vec Ideal S128x128 .f32) (x2 : Vec Ideal S1x128 .f32)
    (i : S50000x128.Idx) (j : S5000x128.Idx) (hcol : (j 1).val = (i 1).val)
    (h0 : ∀ (y : S5000x128.Idx) (k : Fin 128), (y 0).val = (j 0).val → (y 1).val = k.val → x0 y = h (ix2 (i 0) k))
    (h1 : x1 = W)
    (h2 : ∀ (y : S1x128.Idx) (q : Fin 128), (y 1).val = q.val → x2 y = b (ix1 q)) :
    k0_pay1 (F := Ideal) x0 x1 x2 j = Cert.LinearRelu.out h W b i := by
  obtain ⟨p, q, rfl⟩ : ∃ (p : Fin 5000) (q : Fin 128), j = ix2 p q := ⟨j 0, j 1, eq_ix2 j⟩
  have hq : (i 1) = q := Fin.ext hcol.symm
  rw [BlockPayload.pay_apply, h1, h2 (ix2 0 q) q rfl]
  show _ = Cert.LinearRelu.entry h W b (i 0) (i 1)
  rw [hq]
  unfold Cert.LinearRelu.entry
  exact congrArg₂ max (congrArg₂ (· + ·) (Finset.sum_congr rfl fun k _ => by rw [h0 (ix2 p k) k rfl rfl]) rfl) rfl

end Cert.KernelIdeal.DenseValue

end
-- ==== Proof.RegionEntry.lean ====
/-
  The arrays the kernel region finds when it is entered.  Its first window's array is the segment-sum array:
  the feature rows gathered at the source indices (a negative index wrapped by 50000) and added into a zero
  array at the destination indices.  Its third window's array is the bias reshaped to a single row.
-/
import proofs.«171733_j72765335929214_1_alg».proof.Proof.Gen.KernelIdeal.Value
import Idealize.ShloMosaic.Lib.StableHlo.Run
import Idealize.ShloMosaic.Lib.ValueIdx
import Idealize.ShloMosaic.PureOps.Ideal.Laws

noncomputable section

namespace Cert.KernelIdeal.DenseValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The arrays the region finds -/

/-- The segment-sum array: the features gathered at the (wrapped) source indices, added into a zero array at
    the destination indices. -/
def segSum (x0 : FVec Ideal S50000x128 .f32) (x1 x2 : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 x2)
    (Host.gather gather_S50000x128_S800000x1_S800000x128_1_0_n_n_0_1_1128 x0
      (broadcastInDim S800000x1 ![0] bcast_S800000_S800000x1_0
        (select (cmpi .slt x1 (broadcastInDim S800000 ![] bcast_S_S800000 (constantI S_ 32 0#32)))
          (addi x1 (broadcastInDim S800000 ![] bcast_S_S800000 (constantI S_ 32 50000#32))) x1)))

/-- The first window's array at region entry is the segment-sum array of the arguments. -/
theorem seg_entry (c : Dev nD) :
    (V m c main_v9 : S50000x128.Idx → EReal)
      = segSum (m ((c : Thread nD τ).loc main_arg0)) (m ((c : Thread nD τ).loc main_arg1)) (m ((c : Thread nD τ).loc main_arg2)) := by
  dsimp only [Gen.V, Gen.hostOps0]
  after_results
  rfl

/-- The third window's array at region entry is the bias reshaped to one row: its entry (0, q) is `b q`. -/
theorem bias_entry (c : Dev nD) (q : Fin 128) :
    (V m c main_v10 : S1x128.Idx → EReal) (ix2 0 q) = (m ((c : Thread nD τ).loc main_arg4) : S128.Idx → EReal) (ix1 q) := by
  have e : (V m c main_v10 : S1x128.Idx → EReal)
      = shapeCast S1x128 (m ((c : Thread nD τ).loc main_arg4) : S128.Idx → EReal) shapeCasts_S128_S1x128 := by
    dsimp only [Gen.V, Gen.hostOps0]
    after_results
    rfl
  rw [e]
  refine shapeCast_apply _ _ (ix2 0 q) (ix1 q) ?_
  rw [Shape.rowMajor_val_one, Shape.rowMajor_val_two]
  show q.val = 0 * 128 + q.val
  omega

end Cert.KernelIdeal.DenseValue

end
-- ==== Proof.BlockReads.lean ====
/-
  The four windows of the kernel region at grid point t, read at an index.  The first window's block is rows
  5000·t … 5000·t + 4999 of the segment-sum array, all 128 columns; the second is the whole weight matrix; the
  third is the one-row bias; and the result's block is rows 5000·t … 5000·t + 4999 of the result array.  Each
  lemma says which entry of the array an entry of the block is: row p of a row block is row 5000·t + p.  The
  row-block lemmas are stated for an arbitrary array of the right shape, so the segment-sum array is only ever
  named, never computed with.
-/
import proofs.«171733_j72765335929214_1_alg».proof.Proof.Gen.KernelIdeal.Value
import proofs.«171733_j72765335929214_1_alg».proof.Proof.PointValue
import proofs.«171733_j72765335929214_1_alg».proof.Proof.RegionEntry

noncomputable section

namespace Cert.KernelIdeal.DenseValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- An array of the segment-sum array's shape read through point `t`'s block of the first window: entry `x` of
    the block is the array's entry 5000·t rows further down.  (Stated for any array: the segment-sum array itself is
    never opened.) -/
theorem rows_read (t : Fin cfg0.N) (X : FVec Ideal S50000x128 .f32) (x : S5000x128.Idx) (k : S50000x128.Idx)
    (hk0 : (k 0).val = 5000 * t.val + (x 0).val) (hk1 : (k 1).val = (x 1).val) :
    ((cfg0.win 0).blk t).view.read (Elt Ideal) X x = X k := by
  obtain ⟨e00, e01, -, -, -, -, -, -⟩ := idx_facts t
  rw [View.read_apply]
  show X _ = X _
  congr 1
  funext a
  apply Fin.ext
  match a with
  | ⟨0, _⟩ => show win0_0.index t (0 : Fin 2) * 5000 + 1 * (x 0).val = (k 0).val; omega
  | ⟨1, _⟩ => show win0_0.index t (1 : Fin 2) * 128 + 1 * (x 1).val = (k 1).val; omega

/-- The first window's block at point `t` is the segment-sum array of the arguments read through that block. -/
theorem rows_blk (c : Dev nD) (t : Fin cfg0.N) :
    iblk m c 0 t = ((cfg0.win 0).blk t).view.read (Elt Ideal) (segSum (m ((c : Thread nD τ).loc main_arg0)) (m ((c : Thread nD τ).loc main_arg1)) (m ((c : Thread nD τ).loc main_arg2))) := by
  unfold iblk
  exact congrArg (((cfg0.win 0).blk t).view.read (Elt Ideal)) (seg_entry m c)

/-- The second window's block at every point is the whole weight matrix. -/
theorem weights_eq (c : Dev nD) (t : Fin cfg0.N) :
    (iblk m c 1 t : Vec Ideal S128x128 .f32) = (V m c main_arg3 : S128x128.Idx → EReal) := by
  obtain ⟨-, -, e10, e11, -, -, -, -⟩ := idx_facts t
  funext y
  unfold iblk
  rw [View.read_apply]
  show V m c main_arg3 _ = V m c main_arg3 _
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- An entry of the third window's block in column q is the bias at q. -/
theorem bias_apply (c : Dev nD) (t : Fin cfg0.N) (y : S1x128.Idx) (q : Fin 128) (hq : (y 1).val = q.val) :
    (iblk m c 2 t : Vec Ideal S1x128 .f32) y = (m ((c : Thread nD τ).loc main_arg4) : S128.Idx → EReal) (ix1 q) := by
  obtain ⟨-, -, -, -, e20, e21, -, -⟩ := idx_facts t
  have hy0 : (y 0).val < 1 := (y 0).isLt
  refine Eq.trans ?_ (bias_entry m c q)
  unfold iblk
  rw [View.read_apply]
  show V m c main_v10 _ = V m c main_v10 _
  congr 1
  funext a
  apply Fin.ext
  match a with
  | ⟨0, _⟩ => show win0_2.index t (0 : Fin 2) * 1 + 1 * (y 0).val = 0; omega
  | ⟨1, _⟩ => show win0_2.index t (1 : Fin 2) * 128 + 1 * (y 1).val = q.val; omega

/-- An array of the result's shape read through point `t`'s block of the result: entry `j` of the block is the
    array's entry 5000·t rows further down. -/
theorem result_apply (c : Dev nD) (t : Fin cfg0.N) (G : FVec Ideal S50000x128 .f32)
    (j : ((cfg0.win 3).xblock (grid0.coords t)).Idx) (k : S50000x128.Idx)
    (hk0 : (k 0).val = 5000 * t.val + (j 0).val) (hk1 : (k 1).val = (j 1).val) :
    ((cfg0.win 3).blk t).view.read (Elt Ideal) G j = G k := by
  obtain ⟨-, -, -, -, -, -, e30, e31⟩ := idx_facts t
  rw [View.read_apply]
  show G _ = G _
  congr 1
  funext a
  apply Fin.ext
  match a with
  | ⟨0, _⟩ => show win0_3.index t (0 : Fin 2) * 5000 + 1 * (j 0).val = (k 0).val; omega
  | ⟨1, _⟩ => show win0_3.index t (1 : Fin 2) * 128 + 1 * (j 1).val = (k 1).val; omega

end Cert.KernelIdeal.DenseValue

end
-- ==== Proof.KernelValue.lean ====
/-
  The kernel's result array.  What grid point t writes back is the body's stored block over the point's three
  input blocks; by the block reads and the body's entry formula it is the dense layer of the segment-sum array,
  the weights and the bias, read through the point's block of the result.  The ten blocks of 5000 rows cover the
  50000 rows (row r lies in block r / 5000), so after the run the array holds the dense layer.
-/
import proofs.«171733_j72765335929214_1_alg».proof.Proof.Gen.KernelIdeal.Value
import proofs.«171733_j72765335929214_1_alg».proof.Proof.BlockReads

noncomputable section

namespace Cert.KernelIdeal.DenseValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The part of a block that is written back, at an index: the block at the same coordinates (no block of this
    region is cut short by the array's end). -/
theorem cut_apply (t : Fin cfg0.N) (X : FVec Ideal S5000x128 .f32) (j : ((cfg0.win 3).xblock (grid0.coords t)).Idx) :
    (cfg0.win 3).cut (grid0.coords t) X j = X ((cfg0.win 3).xinj (grid0.coords t) j) := rfl

/-- WHAT POINT `t` WRITES BACK is the dense layer of the segment-sum array, the weights and the bias, read through
    the point's block. -/
theorem flushed_eq (c : Dev nD) (t : Fin cfg0.N) :
    (dats m 0 c).flushed 3 t = ((cfg0.win 3).blk t).view.read (Elt Ideal)
      (Cert.LinearRelu.out (segSum (m ((c : Thread nD τ).loc main_arg0)) (m ((c : Thread nD τ).loc main_arg1)) (m ((c : Thread nD τ).loc main_arg2))) (V m c main_arg3) (m ((c : Thread nD τ).loc main_arg4))) := by
  -- the written block is the body's payload over the three blocks, the first two rewritten as reads of named arrays
  have hL : (dats m 0 c).flushed 3 t = (cfg0.win 3).cut (grid0.coords t)
      (k0_pay1 (F := Ideal) (((cfg0.win 0).blk t).view.read (Elt Ideal) (segSum (m ((c : Thread nD τ).loc main_arg0)) (m ((c : Thread nD τ).loc main_arg1)) (m ((c : Thread nD τ).loc main_arg2)))) (V m c main_arg3) (iblk m c 2 t)) := by
    rw [Value.flushed3]
    unfold out0_3
    rw [View.canon_unit_zero hz]
    simp only [View.ld_unit_zero (S := S5000x128) hz, View.ld_unit_zero (S := S128x128) hz, View.ld_unit_zero (S := S1x128) hz]
    rw [rows_blk m c t, weights_eq m c t]
  rw [hL]
  funext j
  have hj0 : (j 0).val < 5000 := (j 0).isLt
  have hj1 : (j 1).val < 128 := (j 1).isLt
  have ht : t.val < 10 := t.isLt
  rw [cut_apply]
  refine Eq.trans ?_ (result_apply c t _ j
    (ix2 (⟨5000 * t.val + (j 0).val, by omega⟩ : Fin 50000) (⟨(j 1).val, hj1⟩ : Fin 128)) rfl rfl).symm
  refine block_entry (segSum (m ((c : Thread nD τ).loc main_arg0)) (m ((c : Thread nD τ).loc main_arg1)) (m ((c : Thread nD τ).loc main_arg2))) (V m c main_arg3) (m ((c : Thread nD τ).loc main_arg4))
    (((cfg0.win 0).blk t).view.read (Elt Ideal) (segSum (m ((c : Thread nD τ).loc main_arg0)) (m ((c : Thread nD τ).loc main_arg1)) (m ((c : Thread nD τ).loc main_arg2)))) (V m c main_arg3) (iblk m c 2 t)
    (ix2 (⟨5000 * t.val + (j 0).val, by omega⟩ : Fin 50000) (⟨(j 1).val, hj1⟩ : Fin 128))
    ((cfg0.win 3).xinj (grid0.coords t) j) rfl ?_ rfl ?_
  · intro y k hy0 hy1
    have hy0' : (y 0).val = (j 0).val := hy0
    refine rows_read t (segSum (m ((c : Thread nD τ).loc main_arg0)) (m ((c : Thread nD τ).loc main_arg1)) (m ((c : Thread nD τ).loc main_arg2))) y _ ?_ hy1.symm
    show 5000 * t.val + (j 0).val = 5000 * t.val + (y 0).val
    omega
  · intro y q hy
    exact bias_apply m c t y q hy

/-! ## The whole array -/

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v11).slice (win0_3.rect t)).set ↔ _
  rw [View.set_slice_whole, Rect.mem_set_unit]
  exact Iff.rfl

/-- Row r of the array is in the block of point r / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 5000, by show (i 0).val / 5000 < 10; omega⟩, flush0_3 _, ?_⟩
  obtain ⟨-, -, -, -, -, -, e30, e31⟩ := idx_facts ⟨(i 0).val / 5000, by show (i 0).val / 5000 < 10; omega⟩
  rw [mem_blk]
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e31]; omega

/-- THE ARRAY after the run: the dense layer of the segment-sum array, the weights and the bias, as launched. -/
theorem final (c : Dev nD) : (dats m 0 c).arrAt 3 cfg0.N
    = Cert.LinearRelu.out (segSum (m ((c : Thread nD τ).loc main_arg0)) (m ((c : Thread nD τ).loc main_arg1)) (m ((c : Thread nD τ).loc main_arg2))) (m ((c : Thread nD τ).loc main_arg3)) (m ((c : Thread nD τ).loc main_arg4)) := by
  rw [← V_main_arg3 m c]
  exact (dats m 0 c).arrAt_eq_of_cover 3 _ (fun t _ => flushed_eq m c t) cover

/-- The kernel's run with its result named. -/
theorem run : θ_run defs (onTc (τ := τ) (main (F := Ideal))) ⟨m, fun _ => 0, ρ⟩ fun r => ∀ c : Dev nD,
      r.2.mem ((c : Thread nD τ).loc main_v11)
        = Cert.LinearRelu.out (segSum (m ((c : Thread nD τ).loc main_arg0)) (m ((c : Thread nD τ).loc main_arg1)) (m ((c : Thread nD τ).loc main_arg2)))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.DenseValue

end
-- ==== Proof.lean ====
/-
  A graph-convolution layer: gather the source nodes' feature rows along 800000 edges, add them into their
  destination nodes (a segment sum into 50000 rows), then a dense layer with a rectified result,
  max (h · W + b, 0).

  Both programs compute the segment-sum array `h` with the same host operations — negative source indices
  wrapped by 50000, a row gather, a scatter-add into a zero array — so `h` is carried as ONE term of the
  arguments and never opened.  They differ only in the dense layer: the reference multiplies all 50000 rows at
  once, adds the bias broadcast down the rows and takes the maximum with zero; the kernel does the same on ten
  blocks of 5000 rows, narrowing its matrix operands to bf16 first, which on the extended reals is the identity.
  Entry (r, c) of either result is  max (∑ₖ h[r, k] · W[k, c] + b[c], 0): the same sum with the same factors in
  the same order, so no law of arithmetic beyond that identity is needed, and the finiteness of the inputs is
  not used.

  `LinearRelu` states that entry; `RefValue` reads the reference's last stage at an index as it; `BlockPayload`
  reads the kernel body's stored block at an index; `KernelValue` carries a block's entry to the array's (row p
  of block t is row 5000·t + p) and covers the array by the ten blocks.  The idealized kernel is the kernel's own
  text read over the extended reals (no rewrite was applied), so the idealization claim has nothing to state.
-/
import proofs.«171733_j72765335929214_1_alg».proof.Defs
import proofs.«171733_j72765335929214_1_alg».proof.Proof.Gen.Kernel
import proofs.«171733_j72765335929214_1_alg».proof.Proof.Gen.Kernel.Skeleton
import proofs.«171733_j72765335929214_1_alg».proof.Proof.Gen.Kernel.Launch
import proofs.«171733_j72765335929214_1_alg».proof.Proof.Gen.Kernel.Points
import proofs.«171733_j72765335929214_1_alg».proof.Proof.Gen.Kernel.Frame
import proofs.«171733_j72765335929214_1_alg».proof.Proof.Gen.KernelIdeal
import proofs.«171733_j72765335929214_1_alg».proof.Proof.Gen.KernelIdeal.Skeleton
import proofs.«171733_j72765335929214_1_alg».proof.Proof.Gen.KernelIdeal.Launch
import proofs.«171733_j72765335929214_1_alg».proof.Proof.Gen.KernelIdeal.Points
import proofs.«171733_j72765335929214_1_alg».proof.Proof.Gen.KernelIdeal.Frame
import proofs.«171733_j72765335929214_1_alg».proof.Proof.Gen.ReferenceIdeal
import proofs.«171733_j72765335929214_1_alg».proof.Proof.Gen.Pre_finite_inputs
import proofs.«171733_j72765335929214_1_alg».proof.Proof.Gen.KernelIdeal.Value
import proofs.«171733_j72765335929214_1_alg».proof.Proof.Gen.ReferenceIdeal.Run
import proofs.«171733_j72765335929214_1_alg».proof.Proof.Gen.ReferenceIdeal.Read
import proofs.«171733_j72765335929214_1_alg».proof.Proof.LinearRelu
import proofs.«171733_j72765335929214_1_alg».proof.Proof.RefValue
import proofs.«171733_j72765335929214_1_alg».proof.Proof.KernelValue
import Idealize.ShloMosaic.Adequacy
import Idealize.ShloMosaic.Init

noncomputable section

namespace Cert.Proof

open Idealize.ShloMosaic Idealize.SL.Sem

/-- The two programs' segment-sum stages are one function of the feature and index arrays: the same gather and
    scatter-add over the same dimension numbers. -/
theorem seg_same (x0 : FVec Ideal Cert.KernelIdeal.S50000x128 .f32) (x1 x2 : IVec Cert.KernelIdeal.S800000 32) :
    Cert.ReferenceIdeal.Read.val_main_v9 (F := Ideal) x0 x1 x2 = Cert.KernelIdeal.DenseValue.segSum x0 x1 x2 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's array ends at the dense layer of the segment-sum array (ten blocks of
    5000 rows), and the reference's last stage is the dense layer of its own segment-sum stage: the same array
    once the arguments agree. -/
theorem algebraic : Cert.algebraic_KernelIdeal_ReferenceIdeal := by
  intro m ρ m' ρ' _ hagree
  refine ⟨_, Cert.KernelIdeal.DenseValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v14_eq _ _ _ _ _).trans ((Cert.ReferenceIdeal.RefValue.result_eq _ _ _ _ _).trans ?_)
  rw [seg_same]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
